-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S50257x1024 : Shape := ⟨2, ![50257, 1024]⟩
abbrev S1024 : Shape := ⟨1, ![1024]⟩
abbrev S8192x1024 : Shape := ⟨2, ![8192, 1024]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : IVec S8192 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg0 main_v19
  let main_c_7 : IVec S_ 32 := constantI S_ 32 50257#32
  let main_v21 : IVec S8192 32 := broadcastInDim S8192 ![] bcast_S_S8192 main_c_7
  let main_v22 : IVec S8192 1 := cmpi .slt main_arg0 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  main_v25

def fn {F : FTy → Type} [FloatOps F] (main_arg0 : IVec S8192 32) (main_arg1 : FVec F S50257x1024 .f32) (main_arg2 : FVec F S1024 .f32) (main_arg3 : FVec F S8192x1024 .f32) (main_arg4 : FVec F S1024 .f32) : IVec S_ 1 :=
  let main_v0 : FVec F S50257x1024 .f32 := Host.absf main_arg1
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg0 main_v13 main_v16
-- ==== Kernel.lean ====
abbrev S8192 : Shape := ⟨1, ![8192]⟩
abbrev S50257x1024 : Shape := ⟨2, ![50257, 1024]⟩
abbrev S1024 : Shape := ⟨1, ![1024]⟩
abbrev S8192x1024 : Shape := ⟨2, ![8192, 1024]⟩
abbrev S50257x8x128 : Shape := ⟨3, ![50257, 8, 128]⟩
abbrev S8192x8x128 : Shape := ⟨3, ![8192, 8, 128]⟩
abbrev S8x128 : Shape := ⟨2, ![8, 128]⟩
abbrev S1x8x128 : Shape := ⟨3, ![1, 8, 128]⟩
abbrev S1 : Shape := ⟨1, ![1]⟩

abbrev nBuf : Space → Nat
  | .hbm => 10
  | .vmem => 8
  | .smem => 1
  | _ => 0

abbrev bufTy : (tb : Table) → Fin (tcTables nBuf tb) → BufTy
  | .hbm, ⟨0, _⟩ => ⟨S50257x1024, .f32⟩
  | .hbm, ⟨1, _⟩ => ⟨S1024, .f32⟩
  | .hbm, ⟨2, _⟩ => ⟨S8192x1024, .f32⟩
  | .hbm, ⟨3, _⟩ => ⟨S1024, .f32⟩
  | .hbm, ⟨4, _⟩ => ⟨S50257x8x128, .f32⟩
  | .hbm, ⟨5, _⟩ => ⟨S8192x8x128, .f32⟩
  | .hbm, ⟨6, _⟩ => ⟨S8x128, .f32⟩
  | .hbm, ⟨7, _⟩ => ⟨S8x128, .f32⟩
  | .hbm, ⟨8, _⟩ => ⟨S8192x8x128, .f32⟩
  | .hbm, ⟨9, _⟩ => ⟨S8192x1024, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | .local _ .vmem, ⟨5, _⟩ => ⟨S8x128, .f32⟩
  | .local _ .vmem, ⟨6, _⟩ => ⟨S1x8x128, .f32⟩
  | .local _ .vmem, ⟨7, _⟩ => ⟨S1x8x128, .f32⟩
  | .local _ .smem, ⟨0, _⟩ => ⟨S8192, .i32⟩
  | _, _ => ⟨S50257x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8192], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8192.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S8192) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c8191_i32 : BitVec 32 := 8191#32
  let v0 : BitVec 32 := Scalar.subi c8191_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S50257x1024_S50257x8x128 : S50257x1024.ShapeCasts S50257x8x128
  shapeCasts_S8192x1024_S8192x8x128 : S8192x1024.ShapeCasts S8192x8x128
  shapeCasts_S1024_S8x128 : S1024.ShapeCasts S8x128
  numel1_S1 : S1.numel = 1
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S8x128_S1x8x128 : S8x128.ShapeCasts S1x8x128
  shapeCasts_S8192x8x128_S8192x1024 : S8192x8x128.ShapeCasts S8192x1024
  hrank0 : 0 < grid0.rank
  k0_off1_inb : ∀ i : grid0.Coords, ∀ a, (k0_off1 i) a + S1.size a ≤ S8192.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S8192x8x128.size a
  hwx0_1 : ∀ i : grid0.Coords, EltTy.bits .f32 = 32 ∨ (Rect.block (s := S8192x8x128) S1x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8192x8x128.size a
  hwx0_4 : ∀ i : grid0.Coords, EltTy.bits .f32 = 32 ∨ (Rect.block (s := S8192x8x128) S1x8x128.size (cc0_transform_4 i) (hinb0_4 i)).WholeWords (EltTy.packing .f32)

variable [Facts₀]

abbrev spec0_0 : Pipeline.WinSpec sig grid0.rank :=
  Pipeline.WinSpec.ofSpec (Memref.whole main_v0) S1x8x128.size reads0_0 false false 2 stage0_0 sem0_0 nbuf0_0 hstage0_0

abbrev spec0_1 : Pipeline.WinSpec sig grid0.rank :=
  Pipeline.WinSpec.ofSpec (Memref.whole main_v1) S1x8x128.size reads0_1 false false 2 stage0_1 sem0_1 nbuf0_1 hstage0_1

abbrev spec0_2 : Pipeline.WinSpec sig grid0.rank :=
  Pipeline.WinSpec.ofSpec (Memref.whole main_v2) S8x128.size reads0_2 false true 1 stage0_2 sem0_2 nbuf0_2 hstage0_2

abbrev spec0_3 : Pipeline.WinSpec sig grid0.rank :=
  Pipeline.WinSpec.ofSpec (Memref.whole main_v3) S8x128.size reads0_3 false true 1 stage0_3 sem0_3 nbuf0_3 hstage0_3

abbrev spec0_4 : Pipeline.WinSpec sig grid0.rank :=
  Pipeline.WinSpec.ofSpec (Memref.whole main_v4) S1x8x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x8x128.size a ≤ S50257x8x128.size a), EltTy.bits .f32 = 32 ∨ (Rect.block (s := S50257x8x128) S1x8x128.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8192 : Shape := ⟨1, ![8192]⟩
abbrev S50257x1024 : Shape := ⟨2, ![50257, 1024]⟩
abbrev S1024 : Shape := ⟨1, ![1024]⟩
abbrev S8192x1024 : Shape := ⟨2, ![8192, 1024]⟩
abbrev S_ : Shape := ⟨0, ![]⟩
abbrev S8192x1 : Shape := ⟨2, ![8192, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192, .i32⟩
  | .hbm, ⟨1, _⟩ => ⟨S50257x1024, .f32⟩
  | .hbm, ⟨2, _⟩ => ⟨S1024, .f32⟩
  | .hbm, ⟨3, _⟩ => ⟨S8192x1024, .f32⟩
  | .hbm, ⟨4, _⟩ => ⟨S1024, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  gather_S50257x1024_S8192x1_S8192x1024_1_0_n_n_0_1_11024_wf : GatherDims.WF S50257x1024 S8192x1 S8192x1024 [1] [0] [] [0] [] 1 ![1, 1024]
  gather_S8192x1024_S8192x1_S8192x1024_1_0_n_n_0_1_11024_wf : GatherDims.WF S8192x1024 S8192x1 S8192x1024 [1] [0] [] [0] [] 1 ![1, 1024]

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.TokenRange.lean ====
/-
  The precondition's last conjunct, decoded: every token id, read signed, lies in [0, 50257), the row range of the
  token table it indexes; so read unsigned it is below 50257, and read signed it is the same natural number.
  The conjunct is `jnp.all((x >= 0) & (x < 50257))`: a reduction by `and` over the one axis of the ids, of the
  bitwise `and` of two signed comparisons against splat constants; the whole precondition being 1 makes that
  reduction 1, hence both comparisons 1 at every position.
-/
import proofs.«425993_j8418135900659_2_alg».proof.Pre_finite_inputs
import Idealize.ShloMosaic.Lib.ReduceAll
import Idealize.ShloMosaic.Lib.ValueIdx

noncomputable section

namespace Cert.TokenRange

open Idealize.ShloMosaic Cert.Pre_finite_inputs

variable [Cert.Pre_finite_inputs.Facts]
variable {F : FTy → Type} [FloatOps F]

/-- The scalar shape has one index. -/
instance : Subsingleton S_.Idx := ⟨fun a b => funext fun d => d.elim0⟩

/-- A 32-bit word that is, read signed, at least 0 and below 50257 is below 50257 read unsigned. -/
theorem toNat_lt_of_signed (w : BitVec 32) (h0 : (0#32 : BitVec 32).toInt ≤ w.toInt)
    (h1 : w.toInt < (50257#32 : BitVec 32).toInt) : w.toNat < 50257 := by
  have z0 : (0#32 : BitVec 32).toInt = 0 := by decide
  have zV : (50257#32 : BitVec 32).toInt = 50257 := by decide
  rw [z0] at h0; rw [zV] at h1
  have hw := BitVec.toInt_eq_toNat_cond w
  have hl := w.isLt
  split_ifs at hw <;> omega

/-- Under the precondition every token id is, unsigned, a row number of the token table. -/
theorem token_lt (x : IVec S8192 32) (wt : FVec F S50257x1024 .f32) (bt : FVec F S1024 .f32)
    (wp : FVec F S8192x1024 .f32) (bp : FVec F S1024 .f32)
    (h : fn (F := F) x wt bt wp bp = fun _ => 1#1) (i : S8192.Idx) : (x i).toNat < 50257 := by
  have e := congrFun h ValueIdx.ix0
  dsimp only [fn, fn_part1] at e
  have e24 := (IntOp.andi_eq_one.1 e).2
  have ei := Host.reduce_andi_all _ _ _ _ _ e24 i
  obtain ⟨h0, h1⟩ := IntOp.andi_eq_one.1 ei
  exact toNat_lt_of_signed (x i) (IntOp.cmpi_sge.1 h0) (IntOp.cmpi_slt.1 h1)

/-- A word below 50257 unsigned is not negative read signed, and reads signed as that natural number. -/
theorem toInt_of_lt (w : BitVec 32) (h : w.toNat < 50257) : w.toInt = (w.toNat : Int) := by
  have hw := BitVec.toInt_eq_toNat_cond w
  split_ifs at hw <;> omega

end Cert.TokenRange

end
-- ==== Proof.KernelOk.lean ====
/-
  The token table's block stays inside the table.

  The kernel fetches, at grid point p, the block of the (50257, 8, 128) token table whose leading block index is the
  word x_p of the prefetched id table, read unsigned; the other two block indices are 0 and the block is (1, 8, 128).
  That block lies inside the table exactly when x_p < 50257 unsigned, which is what the precondition's range conjunct
  gives. The elements are 32 bits wide, so the transfer's ends are whole words.
-/
import proofs.«425993_j8418135900659_2_alg».proof.Proof.Gen.Kernel.Frame

set_option maxRecDepth 16384

noncomputable section

namespace Cert.Kernel.TokenOk

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The id table as the region finds it is the id argument as launched: no host operation before the region writes it. -/
theorem tbl_eq : tbl m 0 = m (((0 : Dev nD) : Thread nD τ).loc main_arg0) := V_main_arg0 m 0

/-- Every id below 50257 unsigned: every block the token window fetches is a row block of the token table. -/
theorem ok_of_range (h : ∀ i : S8192.Idx, (m (((0 : Dev nD) : Thread nD τ).loc main_arg0) i).toNat < 50257) : Ok m := by
  intro i
  have hl : ∀ x, (tbl m 0 x).toNat < 50257 := fun x => by rw [tbl_eq]; exact h x
  obtain ⟨w, hw, e⟩ : ∃ w : BitVec 32, w.toNat < 50257 ∧ cc0_transform_0 k0_off1_inb numel1_S1 (tbl m) i = ![w.toNat, 0, 0] :=
    ⟨_, hl _, rfl⟩
  refine ⟨fun a => ?_, Or.inl rfl⟩
  rw [e]
  fin_cases a <;> simp [S1x8x128, S50257x8x128] <;> omega

end Cert.Kernel.TokenOk

end
-- ==== Proof.KernelIdealOk.lean ====
/-
  The token table's block stays inside the table.

  The kernel fetches, at grid point p, the block of the (50257, 8, 128) token table whose leading block index is the
  word x_p of the prefetched id table, read unsigned; the other two block indices are 0 and the block is (1, 8, 128).
  That block lies inside the table exactly when x_p < 50257 unsigned, which is what the precondition's range conjunct
  gives. The elements are 32 bits wide, so the transfer's ends are whole words.
-/
import proofs.«425993_j8418135900659_2_alg».proof.Proof.Gen.KernelIdeal.Frame

set_option maxRecDepth 16384

noncomputable section

namespace Cert.KernelIdeal.TokenOk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The id table as the region finds it is the id argument as launched: no host operation before the region writes it. -/
theorem tbl_eq : tbl m 0 = m (((0 : Dev nD) : Thread nD τ).loc main_arg0) := V_main_arg0 m 0

/-- Every id below 50257 unsigned: every block the token window fetches is a row block of the token table. -/
theorem ok_of_range (h : ∀ i : S8192.Idx, (m (((0 : Dev nD) : Thread nD τ).loc main_arg0) i).toNat < 50257) : Ok m := by
  intro i
  have hl : ∀ x, (tbl m 0 x).toNat < 50257 := fun x => by rw [tbl_eq]; exact h x
  obtain ⟨w, hw, e⟩ : ∃ w : BitVec 32, w.toNat < 50257 ∧ cc0_transform_0 k0_off1_inb numel1_S1 (tbl m) i = ![w.toNat, 0, 0] :=
    ⟨_, hl _, rfl⟩
  refine ⟨fun a => ?_, Or.inl rfl⟩
  rw [e]
  fin_cases a <;> simp [S1x8x128, S50257x8x128] <;> omega

end Cert.KernelIdeal.TokenOk

end
-- ==== Proof.KernelIdealBlocks.lean ====
/-
  What the kernel body leaves at a grid point, and where each window's block sits in its array.

  The body loads its four input blocks whole, adds them, and stores the sum through the whole output block, so what it
  leaves in the output's staging buffer is the body's one stored value as a function of the four blocks.

  At grid point p (the grid has one axis of 8192 points, so the point's one coordinate is p itself):
    the token window's block is block (x_p, 0, 0) of the (50257, 8, 128) token array, x_p the p-th word of the
      prefetched id table read unsigned: element (0, s, l) of the block is element (x_p, s, l) of the array;
    the position window's block is block (8191 - p, 0, 0) of the (8192, 8, 128) position array;
    each bias window's block is its whole (8, 128) array;
    the output window's block is block (p, 0, 0) of the (8192, 8, 128) result array.
  Every block has extent 1 on the leading axis and the full extent on the other two, so an element's place in the array
  is (block index + 0, s, l).

  The arrays the region finds are host reshapes of the arguments: (N, 1024) to (N, 8, 128) and (1024) to (8, 128).
-/
import proofs.«425993_j8418135900659_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The body's stored value -/

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer: its one store's value, of the four input blocks (the token
    block, the token bias, the position block, the position bias, in the order the body adds them). -/
theorem out_eq (c : Dev nD) (i : grid0.Coords) (a2 : Memref sig .tc .vmem S1x8x128 .f32) (h2 : a2.IsWhole)
    (a3 : Memref sig .tc .vmem S1x8x128 .f32) (h3 : a3.IsWhole) (a4 : Memref sig .tc .vmem S8x128 .f32) (h4 : a4.IsWhole)
    (a5 : Memref sig .tc .vmem S8x128 .f32) (h5 : a5.IsWhole) (a6 : Memref sig .tc .vmem S1x8x128 .f32) (h6 : a6.IsWhole)
    (x0 : Vec F S1x8x128 .f32) (x1 : Vec F S1x8x128 .f32) (x2 : Vec F S8x128 .f32) (x3 : Vec F S8x128 .f32)
    (xt0 : TbBuf0 (F := F) c tbM0_0) :
    out0_A_4 c i a2 h2 a3 h3 a4 h4 a5 h5 a6 h6 x0 x1 x2 x3 xt0 = k0_pay1 x0 x2 x1 x3 := by
  unfold out0_A_4
  rw [View.read_writes_eq_canon _ _ _ (cover0_A_4 c i a2 h2 a3 h3 a4 h4 a5 h5 a6 h6 x0 x1 x2 x3 xt0)]
  unfold kernelRun0_A
  dsimp only
  sl_unfold_words
  rw [View.canon_unit_zero hz3]
  simp only [View.readAt_eq_ld, h2.read_unread, h3.read_unread, h4.read_unread, h5.read_unread,
    View.ld_unit_zero (S := S1x8x128) hz3, View.ld_unit_zero (S := S8x128) hz2]

/-- The stored value depends on the blocks only. -/
theorem pay_congr {v0 v0' v6 v6' : Vec F S1x8x128 .f32} {v2 v2' v9 v9' : Vec F S8x128 .f32}
    (h0 : v0 = v0') (h2 : v2 = v2') (h6 : v6 = v6') (h9 : v9 = v9') : k0_pay1 v0 v2 v6 v9 = k0_pay1 v0' v2' v6' v9' := by
  subst h0 h2 h6 h9; rfl

/-! ## The grid point's coordinate and the windows' block indices -/

/-- On the one-axis grid the point's coordinate is its number. -/
theorem coord_val (t : Fin grid0.N) : (grid0.coords t 0).val = t.val := by
  have hN : grid0.N = 8192 := N_0
  have hs : grid0.stride 0 = 1 := by decide
  have ht := t.isLt
  show t.val / grid0.stride 0 % 8192 = t.val
  rw [hs]; omega

/-- The token window's block index at coordinates i: the id table's word at position i, unsigned, then 0, 0. -/
theorem tok_index (pf : pre0.Contents (Elt F)) (i : grid0.Coords) :
    cc0_transform_0 k0_off1_inb numel1_S1 pf i = ![(pf 0 (ix1 ⟨(i 0).val, (i 0).isLt⟩)).toNat, 0, 0] := by
  have hi : (i 0).val < 8192 := (i 0).isLt
  have e : pf.at 0 (Rect.unit (s := S8192) ![(Scalar.indexCast (BitVec.ofNat 32 (i 0).val)).toNat] S1.size (k0_off1_inb i)) numel1_S1
      = pf 0 (ix1 ⟨(i 0).val, (i 0).isLt⟩) := by
    refine congrArg (pf 0) (funext fun a => Fin.ext ?_)
    match a with
    | ⟨0, _⟩ =>
      show (BitVec.ofNat 32 (i 0).val).toNat + 1 * (Shape.Idx.first (numel1_S1.symm ▸ Nat.one_pos) (0 : Fin 1)).val = (i 0).val
      have h0 : (Shape.Idx.first (numel1_S1.symm ▸ Nat.one_pos : 0 < S1.numel) (0 : Fin 1)).val = 0 := by
        have := (Shape.Idx.first (numel1_S1.symm ▸ Nat.one_pos : 0 < S1.numel) (0 : Fin 1)).isLt
        have e1 : S1.size (0 : Fin 1) = 1 := by decide
        omega
      rw [h0, BitVec.toNat_ofNat]; omega
  unfold cc0_transform_0
  dsimp only
  rw [e]; rfl

/-- The position window's block index: 8191 minus the coordinate (no wrap: the coordinate is below 8192). -/
theorem pos_index (i : grid0.Coords) : cc0_transform_1 i = ![8191 - (i 0).val, 0, 0] := by
  have hi : (i 0).val < 8192 := (i 0).isLt
  have h : (Scalar.subi (8191#32) (BitVec.ofNat 32 (i 0).val)).toNat = 8191 - (i 0).val := by
    show (8191#32 - BitVec.ofNat 32 (i 0).val).toNat = _
    rw [BitVec.toNat_sub, BitVec.toNat_ofNat, BitVec.toNat_ofNat]; omega
  unfold cc0_transform_1
  dsimp only
  rw [h]; rfl

/-- The output window's block index: the coordinate. -/
theorem out_index (i : grid0.Coords) : cc0_transform_4 i = ![(i 0).val, 0, 0] := by
  have hi : (i 0).val < 8192 := (i 0).isLt
  have h : (BitVec.ofNat 32 (i 0).val).toNat = (i 0).val := by rw [BitVec.toNat_ofNat]; omega
  unfold cc0_transform_4
  dsimp only
  rw [h]; rfl

/-! ## Where a block's element sits in its array (at any admissible contents of the id table) -/

/-- Token window: element y of the block at point t is element (x_t, y₁, y₂) of the token array, when x_t < 50257. -/
theorem emb_tok (a : (pcfg0 (F := F)).Adm) (t : Fin (cfg0 a).N) (ht : t.val < 8192) (y : S1x8x128.Idx)
    (hlt : (a.1 0 (ix1 ⟨t.val, ht⟩)).toNat < 50257) :
    (((cfg0 a).win 0).blk t).view.emb y
      = (ix3 ⟨(a.1 0 (ix1 ⟨t.val, ht⟩)).toNat, hlt⟩ (y 1) (y 2) : S50257x8x128.Idx) := by
  have hc : (⟨(grid0.coords t 0).val, (grid0.coords t 0).isLt⟩ : Fin 8192) = ⟨t.val, ht⟩ := Fin.ext (coord_val t)
  have hix : ((cfg0 a).win 0).index t = ![(a.1 0 (ix1 ⟨t.val, ht⟩)).toNat, 0, 0] := by
    show cc0_transform_0 k0_off1_inb numel1_S1 a.1 (grid0.coords t) = _
    rw [tok_index, hc]
  funext b
  apply Fin.ext
  match b with
  | ⟨0, _⟩ =>
    show ((cfg0 a).win 0).index t (0 : Fin 3) * 1 + 1 * (y 0).val = (a.1 0 (ix1 ⟨t.val, ht⟩)).toNat
    have h0 : (y 0).val < 1 := (y 0).isLt
    rw [hix]; show (a.1 0 (ix1 ⟨t.val, ht⟩)).toNat * 1 + 1 * (y 0).val = _
    omega
  | ⟨1, _⟩ =>
    show ((cfg0 a).win 0).index t (1 : Fin 3) * 8 + 1 * (y 1).val = (y 1).val
    rw [hix]; show 0 * 8 + 1 * (y 1).val = _; omega
  | ⟨2, _⟩ =>
    show ((cfg0 a).win 0).index t (2 : Fin 3) * 128 + 1 * (y 2).val = (y 2).val
    rw [hix]; show 0 * 128 + 1 * (y 2).val = _; omega

/-- Position window: element y of the block at point t is element (8191 - t, y₁, y₂) of the position array. -/
theorem emb_pos (a : (pcfg0 (F := F)).Adm) (t : Fin (cfg0 a).N) (y : S1x8x128.Idx) :
    (((cfg0 a).win 1).blk t).view.emb y = (ix3 ⟨8191 - t.val, by omega⟩ (y 1) (y 2) : S8192x8x128.Idx) := by
  have hix : ((cfg0 a).win 1).index t = ![8191 - t.val, 0, 0] := by
    show cc0_transform_1 (grid0.coords t) = _
    rw [pos_index, coord_val]
  funext b
  apply Fin.ext
  match b with
  | ⟨0, _⟩ =>
    show ((cfg0 a).win 1).index t (0 : Fin 3) * 1 + 1 * (y 0).val = 8191 - t.val
    have h0 : (y 0).val < 1 := (y 0).isLt
    rw [hix]; show (8191 - t.val) * 1 + 1 * (y 0).val = _
    omega
  | ⟨1, _⟩ =>
    show ((cfg0 a).win 1).index t (1 : Fin 3) * 8 + 1 * (y 1).val = (y 1).val
    rw [hix]; show 0 * 8 + 1 * (y 1).val = _; omega
  | ⟨2, _⟩ =>
    show ((cfg0 a).win 1).index t (2 : Fin 3) * 128 + 1 * (y 2).val = (y 2).val
    rw [hix]; show 0 * 128 + 1 * (y 2).val = _; omega

/-- A bias window's block is its whole array: element y is element y. -/
theorem emb_btok (a : (pcfg0 (F := F)).Adm) (t : Fin (cfg0 a).N) (y : S8x128.Idx) :
    (((cfg0 a).win 2).blk t).view.emb y = (y : S8x128.Idx) := by
  funext b
  apply Fin.ext
  match b with
  | ⟨0, _⟩ => show 0 * 8 + 1 * (y 0).val = (y 0).val; omega
  | ⟨1, _⟩ => show 0 * 128 + 1 * (y 1).val = (y 1).val; omega

theorem emb_bpos (a : (pcfg0 (F := F)).Adm) (t : Fin (cfg0 a).N) (y : S8x128.Idx) :
    (((cfg0 a).win 3).blk t).view.emb y = (y : S8x128.Idx) := by
  funext b
  apply Fin.ext
  match b with
  | ⟨0, _⟩ => show 0 * 8 + 1 * (y 0).val = (y 0).val; omega
  | ⟨1, _⟩ => show 0 * 128 + 1 * (y 1).val = (y 1).val; omega

/-- Output window: element y of the block at point t is element (t, y₁, y₂) of the result array. -/
theorem emb_out (a : (pcfg0 (F := F)).Adm) (t : Fin (cfg0 a).N) (ht : t.val < 8192) (y : S1x8x128.Idx) :
    (((cfg0 a).win 4).blk t).view.emb y = (ix3 ⟨t.val, ht⟩ (y 1) (y 2) : S8192x8x128.Idx) := by
  have hix : ((cfg0 a).win 4).index t = ![t.val, 0, 0] := by
    show cc0_transform_4 (grid0.coords t) = _
    rw [out_index, coord_val]
  funext b
  apply Fin.ext
  match b with
  | ⟨0, _⟩ =>
    show ((cfg0 a).win 4).index t (0 : Fin 3) * 1 + 1 * (y 0).val = t.val
    have h0 : (y 0).val < 1 := (y 0).isLt
    rw [hix]; show t.val * 1 + 1 * (y 0).val = _
    omega
  | ⟨1, _⟩ =>
    show ((cfg0 a).win 4).index t (1 : Fin 3) * 8 + 1 * (y 1).val = (y 1).val
    rw [hix]; show 0 * 8 + 1 * (y 1).val = _; omega
  | ⟨2, _⟩ =>
    show ((cfg0 a).win 4).index t (2 : Fin 3) * 128 + 1 * (y 2).val = (y 2).val
    rw [hix]; show 0 * 128 + 1 * (y 2).val = _; omega

end Cert.KernelIdeal.Blocks

end
-- ==== Proof.EmbedSpec.lean ====
/-
  The embedding sum as one function of the argument arrays, index by index.

  Output row p, column k is
      W_tok[x_p, k] + b_tok[k] + W_pos[8191 - p, k] + b_pos[k]
  with x_p the p-th token id read as a natural number (kept inside the 50257 rows of the token table) and the
  position rows taken in reverse order. The sum is written in the order the kernel adds, left to right; the
  reference adds the two embeddings first and then their sum, which is the same extended real because addition
  of extended reals is associative (no finiteness is needed).
-/
import Idealize.ShloMosaic.PureOps.Ideal
import Idealize.ShloMosaic.Lib.ValueIdx

noncomputable section

namespace Cert.EmbedSpec

open Idealize.ShloMosaic Idealize.ShloMosaic.ValueIdx

/-- The token table's row named by the token id at position `p`: the id read unsigned, kept below 50257. -/
def tokRow (x : IVec ⟨1, ![8192]⟩ 32) (p : Fin 8192) : Fin 50257 := ⟨min (x (ix1 p)).toNat 50256, by omega⟩

/-- The position table's row used at position `p`: the positions run backwards. -/
def posRow (p : Fin 8192) : Fin 8192 := ⟨8191 - p.val, by omega⟩

/-- Under an id in range the row is the id itself. -/
theorem tokRow_val (x : IVec ⟨1, ![8192]⟩ 32) (p : Fin 8192) (h : (x (ix1 p)).toNat < 50257) :
    (tokRow x p).val = (x (ix1 p)).toNat := by
  show min (x (ix1 p)).toNat 50256 = _
  omega

/-- The embedding sum, in the kernel's order of additions. -/
def embed (x : IVec ⟨1, ![8192]⟩ 32) (wt : (⟨2, ![50257, 1024]⟩ : Shape).Idx → EReal) (bt : (⟨1, ![1024]⟩ : Shape).Idx → EReal)
    (wp : (⟨2, ![8192, 1024]⟩ : Shape).Idx → EReal) (bp : (⟨1, ![1024]⟩ : Shape).Idx → EReal) :
    (⟨2, ![8192, 1024]⟩ : Shape).Idx → EReal :=
  fun j => ((wt (ix2 (tokRow x (j 0)) (j 1)) + bt (ix1 (j 1))) + wp (ix2 (posRow (j 0)) (j 1))) + bp (ix1 (j 1))

/-- The reference's grouping — token embedding plus bias, position embedding plus bias, then the two added — is the
    same extended real. -/
theorem embed_grouped (a b c d : EReal) : (a + b) + (c + d) = ((a + b) + c) + d := (add_assoc (a + b) c d).symm

end Cert.EmbedSpec

end
-- ==== Proof.ReshapeIdx.lean ====
/-
  The row-major re-indexings this kernel's reshapes make.

  A row of 1024 is laid out as 8 sublanes of 128 lanes: column k is (sublane k / 128, lane k % 128) and (sublane s,
  lane l) is column 128 s + l. A reshape keeps the row-major position, so
    (N, 1024) read as (N, 8, 128): element (r, s, l) is element (r, 128 s + l);
    (1024) read as (8, 128): element (s, l) is element 128 s + l;
    (N, 8, 128) read as (N, 1024): element (p, k) is element (p, k / 128, k % 128);
    (8, 128) read as (1, 8, 128): element (0, s, l) is element (s, l).
-/
import Idealize.ShloMosaic.Lib.Pipeline.Value
import Idealize.ShloMosaic.Lib.ValueIdx

namespace Cert.ReshapeIdx

open Idealize.ShloMosaic Idealize.ShloMosaic.ValueIdx

variable {α : Type}

/-- Column 128 s + l of a row of 1024. -/
def col (s : Fin 8) (l : Fin 128) : Fin 1024 := ⟨s.val * 128 + l.val, by omega⟩

/-- The sublane and the lane of column k. -/
def sub (k : Fin 1024) : Fin 8 := ⟨k.val / 128, by omega⟩
def lane (k : Fin 1024) : Fin 128 := ⟨k.val % 128, Nat.mod_lt _ (by decide)⟩

theorem col_sub_lane (k : Fin 1024) : col (sub k) (lane k) = k :=
  Fin.ext (by show k.val / 128 * 128 + k.val % 128 = k.val; omega)

/-- (N, 1024) read as (N, 8, 128). -/
theorem split_rows {N : Nat} (w : (⟨2, ![N, 1024]⟩ : Shape).Idx → α)
    (h : (⟨2, ![N, 1024]⟩ : Shape).ShapeCasts ⟨3, ![N, 8, 128]⟩) (r : Fin N) (s : Fin 8) (l : Fin 128) :
    shapeCast ⟨3, ![N, 8, 128]⟩ w h (ix3 r s l) = w (ix2 r (col s l)) :=
  shapeCast_apply w h _ _ (by
    rw [Shape.rowMajor_val_two, Shape.rowMajor_val_three]
    show r.val * 1024 + (s.val * 128 + l.val) = (r.val * 8 + s.val) * 128 + l.val
    omega)

/-- (1024) read as (8, 128). -/
theorem split_vec (b : (⟨1, ![1024]⟩ : Shape).Idx → α)
    (h : (⟨1, ![1024]⟩ : Shape).ShapeCasts ⟨2, ![8, 128]⟩) (s : Fin 8) (l : Fin 128) :
    shapeCast ⟨2, ![8, 128]⟩ b h (ix2 s l) = b (ix1 (col s l)) :=
  shapeCast_apply b h _ _ (by
    rw [Shape.rowMajor_val_one, Shape.rowMajor_val_two]
    show s.val * 128 + l.val = s.val * 128 + l.val
    rfl)

/-- (N, 8, 128) read as (N, 1024). -/
theorem merge_rows {N : Nat} (v : (⟨3, ![N, 8, 128]⟩ : Shape).Idx → α)
    (h : (⟨3, ![N, 8, 128]⟩ : Shape).ShapeCasts ⟨2, ![N, 1024]⟩) (p : Fin N) (k : Fin 1024) :
    shapeCast ⟨2, ![N, 1024]⟩ v h (ix2 p k) = v (ix3 p (sub k) (lane k)) :=
  shapeCast_apply v h _ _ (by
    rw [Shape.rowMajor_val_two, Shape.rowMajor_val_three]
    show (p.val * 8 + k.val / 128) * 128 + k.val % 128 = p.val * 1024 + k.val
    omega)

/-- (8, 128) read as (1, 8, 128). -/
theorem add_unit (v : (⟨2, ![8, 128]⟩ : Shape).Idx → α)
    (h : (⟨2, ![8, 128]⟩ : Shape).ShapeCasts ⟨3, ![1, 8, 128]⟩) (s : Fin 8) (l : Fin 128) :
    shapeCast ⟨3, ![1, 8, 128]⟩ v h (ix3 (0 : Fin 1) s l) = v (ix2 s l) :=
  shapeCast_apply v h _ _ (by
    rw [Shape.rowMajor_val_two, Shape.rowMajor_val_three]
    show s.val * 128 + l.val = (0 * 8 + s.val) * 128 + l.val
    omega)

end Cert.ReshapeIdx
-- ==== Proof.KernelIdealValue.lean ====
/-
  The idealized kernel's result: every weakly fair execution ends with the result buffer at the embedding sum.

  The kernel's run is the generated frame run, whose post names each array of the pipeline after the run and the
  buffers the host lines after the region write. Read here:
    what the body leaves at point p is its stored value of the four blocks at p, and those blocks are the token array's
      row block x_p, the whole token bias, the position array's row block 8191 - p and the whole position bias;
    so what point p writes back is block p of ONE array `rows` (row block p of it is that stored value), and the output
      blocks tile the result array, which therefore ends holding `rows`;
    the host reshape after the region reads `rows` as (8192, 1024);
    over the extended reals the stored value is the sum of its four blocks, the (8, 128) biases first given a leading
      unit axis, and the arrays the region finds are reshapes of the arguments: element (p, k) of the result is
      W_tok[x_p, k] + b_tok[k] + W_pos[8191 - p, k] + b_pos[k], the embedding sum.
-/
import proofs.«425993_j8418135900659_2_alg».proof.Proof.KernelIdealBlocks
import proofs.«425993_j8418135900659_2_alg».proof.Proof.KernelIdealOk
import proofs.«425993_j8418135900659_2_alg».proof.Proof.EmbedSpec
import proofs.«425993_j8418135900659_2_alg».proof.Proof.ReshapeIdx
import Idealize.ShloMosaic.Lib.Pipeline.Value
import Idealize.ShloMosaic.Lib.Pipeline.FrameSuffix
import Idealize.ShloMosaic.Lib.ValueIdx
import Idealize.ShloMosaic.Lib.StableHlo.Run
import Idealize.ShloMosaic.Lib.Tactic

set_option maxRecDepth 16384

noncomputable section

namespace Cert.KernelIdeal.EmbedValue

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The result array, and what each point writes of it -/

/-- The (1, 8, 128) block of the token array at row r, and of the position array at row r. -/
def tokRowBlk (c : Dev nD) (r : Fin 50257) : Vec F S1x8x128 .f32 :=
  fun y => V m c main_v0 (ix3 r (y 1 : Fin 8) (y 2 : Fin 128))
def posRowBlk (c : Dev nD) (r : Fin 8192) : Vec F S1x8x128 .f32 :=
  fun y => V m c main_v1 (ix3 r (y 1 : Fin 8) (y 2 : Fin 128))

/-- The result array, row block by row block: at row p the body's stored value of the token array's row block x_p, the
    token bias, the position array's row block 8191 - p and the position bias. -/
def rows (c : Dev nD) : Vec F S8192x8x128 .f32 := fun j =>
  k0_pay1 (tokRowBlk m c (Cert.EmbedSpec.tokRow (m ((c : Thread nD τ).loc main_arg0)) (j 0)))
    (V m c main_v2)
    (posRowBlk m c (Cert.EmbedSpec.posRow (j 0)))
    (V m c main_v3)
    (ix3 (0 : Fin 1) (j 1 : Fin 8) (j 2 : Fin 128))

/-- What the body leaves at point t is that stored value of the row blocks at t. -/
theorem outsAt_eq (hO : Ok m) (hx : ∀ i : S8192.Idx, (m (((0 : Dev nD) : Thread nD τ).loc main_arg0) i).toNat < 50257)
    (t : Fin (cfgM m hO).N) (ht : t.val < 8192) :
    outsAt0 m hO 0 t = k0_pay1 (tokRowBlk m 0 (Cert.EmbedSpec.tokRow (m (((0 : Dev nD) : Thread nD τ).loc main_arg0)) ⟨t.val, ht⟩))
      (V m 0 main_v2) (posRowBlk m 0 (Cert.EmbedSpec.posRow ⟨t.val, ht⟩)) (V m 0 main_v3) := by
  have hlt : (tbl m 0 (ix1 ⟨t.val, ht⟩)).toNat < 50257 := by rw [Cert.KernelIdeal.TokenOk.tbl_eq]; exact hx _
  unfold outsAt0
  refine (out_eq (F := F) 0 (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t)
    (iblk m hO 0 0 t) (iblk m hO 0 1 t) (iblk m hO 0 2 t) (iblk m hO 0 3 t) (tbl m 0)).trans ?_
  refine pay_congr ?_ ?_ ?_ ?_
  · refine funext fun (y : S1x8x128.Idx) => ?_
    refine (congrArg (V m 0 main_v0) (emb_tok (adm m hO) t ht y hlt)).trans ?_
    refine congrArg (fun r => V m 0 main_v0 (ix3 r (y 1 : Fin 8) (y 2 : Fin 128))) (Fin.ext ?_)
    show (tbl m 0 (ix1 ⟨t.val, ht⟩)).toNat = min (m (((0 : Dev nD) : Thread nD τ).loc main_arg0) (ix1 ⟨t.val, ht⟩)).toNat 50256
    rw [Cert.KernelIdeal.TokenOk.tbl_eq] at hlt ⊢
    omega
  · refine funext fun (y : S8x128.Idx) => ?_
    exact congrArg (V m 0 main_v2) (emb_btok (adm m hO) t y)
  · refine funext fun (y : S1x8x128.Idx) => ?_
    exact congrArg (V m 0 main_v1) (emb_pos (adm m hO) t y)
  · refine funext fun (y : S8x128.Idx) => ?_
    exact congrArg (V m 0 main_v3) (emb_bpos (adm m hO) t y)

/-- So what every point writes back is its block of `rows`. -/
theorem flushed_eq (hO : Ok m) (hx : ∀ i : S8192.Idx, (m (((0 : Dev nD) : Thread nD τ).loc main_arg0) i).toNat < 50257)
    (c : Dev nD) (t : Fin (cfgM m hO).N) :
    (dats m hO 0 c).flushed 4 t = (((cfgM m hO).win 4).blk t).view.read (Elt F) (rows m c) := by
  obtain rfl : c = 0 := Subsingleton.elim _ _
  have hN : (cfgM m hO).N = 8192 := N_0
  have ht : t.val < 8192 := by have := t.isLt; omega
  refine funext fun (y : S1x8x128.Idx) => ?_
  show (dats m hO 0 0).after 4 t (((cfgM m hO).win 4).xinj (grid0.coords t) y) = rows m 0 ((((cfgM m hO).win 4).blk t).view.emb y)
  rw [after0_4, emb_out (adm m hO) t ht y, outsAt_eq m hO hx t ht]
  have hy : (((cfgM m hO).win 4).xinj (grid0.coords t) y : S1x8x128.Idx) = ix3 (0 : Fin 1) (y 1 : Fin 8) (y 2 : Fin 128) :=
    funext fun b => Fin.ext (by
      match b with
      | ⟨0, _⟩ => show (y 0).val = 0; have h1 : (y 0).val < 1 := (y 0).isLt; omega
      | ⟨1, _⟩ => rfl
      | ⟨2, _⟩ => rfl)
  rw [hy]
  rfl

/-- Every element of the result array lies in the block of the point named by its row: the blocks tile the array. -/
theorem covered (hO : Ok m) (i : S8192x8x128.Idx) :
    ∃ t : Fin (cfgM m hO).N, ((cfgM m hO).win 4).flush t = true ∧ i ∈ (((cfgM m hO).win 4).blk t).view.set := by
  have hN : grid0.N = 8192 := N_0
  have hi : (i 0).val < 8192 := (i 0).isLt
  have hlt : (i 0).val < (cfgM m hO).N := by show (i 0).val < grid0.N; omega
  obtain ⟨t, htv⟩ : ∃ t : Fin (cfgM m hO).N, t.val = (i 0).val := ⟨⟨(i 0).val, hlt⟩, rfl⟩
  have ht : t.val < 8192 := by omega
  refine ⟨t, flush0_4 (adm m hO) t, ?_⟩
  have e : ((((cfgM m hO).win 4).blk t).view.emb (ix3 (0 : Fin 1) (i 1 : Fin 8) (i 2 : Fin 128) : S1x8x128.Idx) : S8192x8x128.Idx) = i :=
    (emb_out (adm m hO) t ht _).trans
      ((congrArg (fun r : Fin 8192 => (ix3 r (i 1 : Fin 8) (i 2 : Fin 128) : S8192x8x128.Idx)) (Fin.ext htv)).trans (eq_ix3 i).symm)
  exact e ▸ View.emb_mem_set _ _

/-- So the result array ends holding `rows`. -/
theorem final (hO : Ok m) (hx : ∀ i : S8192.Idx, (m (((0 : Dev nD) : Thread nD τ).loc main_arg0) i).toNat < 50257) (c : Dev nD) :
    (dats m hO 0 c).arrAt 4 (cfgM m hO).N = rows m c :=
  (dats m hO 0 c).arrAt_eq_of_cover 4 (rows m c) (fun t _ => flushed_eq m hO hx c t) (covered m hO)

/-- The host reshape after the region reads the result array as (8192, 1024). -/
theorem tail_eq (hO : Ok m) (hx : ∀ i : S8192.Idx, (m (((0 : Dev nD) : Thread nD τ).loc main_arg0) i).toNat < 50257) (c : Dev nD) :
    Pipeline.afterTail pcfgs (fun _ => adm m hO) (dats m hO) 0 (V0 m) [hostOps1] c main_v5
      = shapeCast S8192x1024 (rows m c) shapeCasts_S8192x8x128_S8192x1024 := by
  have hW : Pipeline.withArrays (Pipeline.pin pcfgs (fun _ => adm m hO) 0).spec c (V0 m c)
      (fun w => (dats m hO 0 c).arrAt w (Pipeline.pin pcfgs (fun _ => adm m hO) 0).N) (Proc.devRef .tc main_v4) = rows m c :=
    (Pipeline.withArrays_arr spec0 winFacts0.arr_inj c _ _ 4).trans (final m hO hx c)
  unfold Pipeline.afterTail
  show StableHlo.after hostOps1 _ (Proc.devRef .tc main_v5) = _
  after_results
  exact congrArg (fun A : Vec F S8192x8x128 .f32 => shapeCast S8192x1024 A shapeCasts_S8192x8x128_S8192x1024) hW

/-! ## The arrays the region finds are reshapes of the arguments -/

theorem tokArr_eq (c : Dev nD) : V m c main_v0
    = shapeCast S50257x8x128 (m ((c : Thread nD τ).loc main_arg1)) shapeCasts_S50257x1024_S50257x8x128 := by
  show StableHlo.after hostOps0 (fun b => m (c, b)) (Proc.devRef .tc main_v0) = _
  after_results
  rfl
theorem posArr_eq (c : Dev nD) : V m c main_v1
    = shapeCast S8192x8x128 (m ((c : Thread nD τ).loc main_arg3)) shapeCasts_S8192x1024_S8192x8x128 := by
  show StableHlo.after hostOps0 (fun b => m (c, b)) (Proc.devRef .tc main_v1) = _
  after_results
  rfl
theorem btok_eq (c : Dev nD) : V m c main_v2
    = shapeCast S8x128 (m ((c : Thread nD τ).loc main_arg2)) shapeCasts_S1024_S8x128 := by
  show StableHlo.after hostOps0 (fun b => m (c, b)) (Proc.devRef .tc main_v2) = _
  after_results
  rfl
theorem bpos_eq (c : Dev nD) : V m c main_v3
    = shapeCast S8x128 (m ((c : Thread nD τ).loc main_arg4)) shapeCasts_S1024_S8x128 := by
  show StableHlo.after hostOps0 (fun b => m (c, b)) (Proc.devRef .tc main_v3) = _
  after_results
  rfl

/-! ## Over the extended reals -/

/-- The body's stored value at (0, s, l): the four blocks added left to right, the biases read at (s, l). -/
theorem pay_apply (v0 v6 : Vec Ideal S1x8x128 .f32) (v2 v9 : Vec Ideal S8x128 .f32) (s : Fin 8) (l : Fin 128) :
    k0_pay1 (F := Ideal) v0 v2 v6 v9 (ix3 (0 : Fin 1) s l)
      = ((v0 (ix3 0 s l) + v2 (ix2 s l)) + v6 (ix3 0 s l)) + v9 (ix2 s l) := by
  unfold k0_pay1
  simp only [shapeCast_self]
  rw [addf_apply, addf_apply, addf_apply, Cert.ReshapeIdx.add_unit, Cert.ReshapeIdx.add_unit]

/-- THE RESULT, read as (8192, 1024), is the embedding sum of the arguments. -/
theorem result_eq (mI : (ℓ : Loc nD τ sig) → Buf (Elt Ideal) ℓ) (c : Dev nD) :
    shapeCast S8192x1024 (rows mI c) shapeCasts_S8192x8x128_S8192x1024
      = Cert.EmbedSpec.embed (mI ((c : Thread nD τ).loc main_arg0)) (mI ((c : Thread nD τ).loc main_arg1))
          (mI ((c : Thread nD τ).loc main_arg2)) (mI ((c : Thread nD τ).loc main_arg3)) (mI ((c : Thread nD τ).loc main_arg4)) := by
  funext j
  obtain ⟨p, k, rfl⟩ : ∃ (p : Fin 8192) (k : Fin 1024), j = ix2 p k := ⟨j 0, j 1, eq_ix2 j⟩
  rw [Cert.ReshapeIdx.merge_rows]
  show k0_pay1 (F := Ideal) (tokRowBlk mI c (Cert.EmbedSpec.tokRow (mI ((c : Thread nD τ).loc main_arg0)) p)) (V mI c main_v2)
    (posRowBlk mI c (Cert.EmbedSpec.posRow p)) (V mI c main_v3) (ix3 (0 : Fin 1) (Cert.ReshapeIdx.sub k) (Cert.ReshapeIdx.lane k)) = _
  rw [pay_apply]
  unfold tokRowBlk posRowBlk
  rw [tokArr_eq, posArr_eq, btok_eq, bpos_eq]
  show ((shapeCast S50257x8x128 _ _ (ix3 _ (Cert.ReshapeIdx.sub k) (Cert.ReshapeIdx.lane k))
      + shapeCast S8x128 _ _ (ix2 (Cert.ReshapeIdx.sub k) (Cert.ReshapeIdx.lane k)))
      + shapeCast S8192x8x128 _ _ (ix3 _ (Cert.ReshapeIdx.sub k) (Cert.ReshapeIdx.lane k)))
      + shapeCast S8x128 _ _ (ix2 (Cert.ReshapeIdx.sub k) (Cert.ReshapeIdx.lane k)) = _
  rw [Cert.ReshapeIdx.split_rows, Cert.ReshapeIdx.split_rows, Cert.ReshapeIdx.split_vec, Cert.ReshapeIdx.split_vec,
    Cert.ReshapeIdx.col_sub_lane]
  rfl

/-! ## The run -/

/-- Every weakly fair execution of the idealized kernel, from a memory whose token ids are all below 50257, ends with the
    result at the embedding sum of the arguments and the arguments unchanged. -/
theorem run (mI : (ℓ : Loc nD τ sig) → Buf (Elt Ideal) ℓ) (hO : Ok mI)
    (hx : ∀ i : S8192.Idx, (mI (((0 : Dev nD) : Thread nD τ).loc main_arg0) i).toNat < 50257) :
    θ_run defs (onTc (τ := τ) (main (F := Ideal))) ⟨mI, fun _ => 0, ρ⟩ (fun r => ∀ c : Dev nD,
      r.2.mem ((c.tc : Thread nD τ).loc main_v5)
        = Cert.EmbedSpec.embed (mI ((c : Thread nD τ).loc main_arg0)) (mI ((c : Thread nD τ).loc main_arg1))
            (mI ((c : Thread nD τ).loc main_arg2)) (mI ((c : Thread nD τ).loc main_arg3)) (mI ((c : Thread nD τ).loc main_arg4))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)) :=
  (θ_run defs _ _).mono (fun _ h c =>
    ⟨((h c).2 main_v5 (by decide : main_v5 ∈ Pipeline.restRefs sig spec0)).trans ((tail_eq mI hO hx c).trans (result_eq mI c)),
      ((h c).2 main_arg0 (by decide : main_arg0 ∈ Pipeline.restRefs sig spec0)).trans (W_main_arg0 mI hO (dats mI hO) c),
      ((h c).2 main_arg1 (by decide : main_arg1 ∈ Pipeline.restRefs sig spec0)).trans (W_main_arg1 mI hO (dats mI hO) c),
      ((h c).2 main_arg2 (by decide : main_arg2 ∈ Pipeline.restRefs sig spec0)).trans (W_main_arg2 mI hO (dats mI hO) c),
      ((h c).2 main_arg3 (by decide : main_arg3 ∈ Pipeline.restRefs sig spec0)).trans (W_main_arg3 mI hO (dats mI hO) c),
      ((h c).2 main_arg4 (by decide : main_arg4 ∈ Pipeline.restRefs sig spec0)).trans (W_main_arg4 mI hO (dats mI hO) c)⟩)
    (run_main mI ρ hO)

end Cert.KernelIdeal.EmbedValue

end
-- ==== Proof.LibGather.lean ====
/-
  Reading a row gather at an element.

  jnp's `table[idx]` over a two-axis table of N rows prints as a gather whose start indices are an (n, 1) column of
  row numbers: the table's first axis is collapsed and start-indexed, its second axis is the one offset axis of the
  result, and the index vector lies along axis 1 of the column.  Result element (p, k) is then the table's element
  (r, k), where r is the p-th start index read as a signed integer and clamped into [0, N - 1].
-/
import Idealize.ShloMosaic.PureOps.ShapeOps
import Idealize.ShloMosaic.Lib.ValueIdx

namespace Idealize.ShloMosaic.RowGather

open Idealize.ShloMosaic Idealize.ShloMosaic.ValueIdx

/-- A list known to be one element long, read at any position, gives that element. -/
theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

/-- On the table's row axis the operand index is the clamped start index. -/
theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

/-- On the table's column axis the operand index is the result's column. -/
theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

/-- Element (p, k) of a row gather is the table's element (r, k), r the p-th start index read signed and clamped into the
    table. -/
theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.RefValue.lean ====
/-
  The reference's result, index by index, is the embedding sum.

  The reference normalises each index before it gathers: a negative index has the table's length added (numpy's
  wrap-around), and the gather clamps the result into the table. For a token id in [0, 50257) neither does anything,
  so row p of the first gather is row x_p of the token table; the position indices 8191 - p are never negative and
  never past the table, so row p of the second gather is row 8191 - p of the position table. Each bias is laid along
  every row. The reference then adds (token row + bias) + (position row + bias); the kernel's order differs only in
  the grouping.
-/
import proofs.«425993_j8418135900659_2_alg».proof.Proof.Gen.ReferenceIdeal.Run
import proofs.«425993_j8418135900659_2_alg».proof.Proof.Gen.ReferenceIdeal.Read
import proofs.«425993_j8418135900659_2_alg».proof.Proof.EmbedSpec
import proofs.«425993_j8418135900659_2_alg».proof.Proof.LibGather
import Idealize.ShloMosaic.Lib.Affine
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- A word below 2^31 unsigned reads signed as the same natural number. -/
theorem toInt_small (w : BitVec 32) (h : w.toNat < 2 ^ 31) : w.toInt = (w.toNat : Int) := by
  have hw := BitVec.toInt_eq_toNat_cond w
  split_ifs at hw <;> omega

/-- The one-column index (p, 0) of the start-index column is read at position p of the vector it came from. -/
theorem col_idx (p : Fin 8192) : idx_main_v8 (ix2 p (0 : Fin 1)) = ix1 p :=
  funext fun a => by match a with | ⟨0, _⟩ => rfl

/-- The token gather's start index at row p is the token id itself when the id is in range: it is not negative, so
    the wrap-around branch is not taken. -/
theorem start_tok (x0 : IVec S8192 32) (p : Fin 8192) (h : (x0 (ix1 p)).toNat < 50257) :
    val_main_v8 (F := Ideal) x0 (ix2 p 0) = x0 (ix1 p) := by
  rw [val_main_v8_apply, val_main_v7_apply, val_main_v4_apply, val_main_v3_apply, val_main_c_0_apply, col_idx]
  have hn : ¬IntOp.cmpi .slt (x0 (ix1 p)) 0#32 = 1#1 := by
    rw [IntOp.cmpi_slt, toInt_small _ (by omega), show (0#32 : BitVec 32).toInt = 0 from by decide]
    omega
  exact if_neg hn

/-- 8191 minus the position, as a 32-bit word, is the word of the natural number 8191 - p. -/
theorem rev_word (p : Fin 8192) : IntOp.subi (8191#32) (BitVec.ofNat 32 p.val) = BitVec.ofNat 32 (8191 - p.val) := by
  apply BitVec.eq_of_toNat_eq
  have hp := p.isLt
  simp only [IntOp.subi, BitVec.toNat_sub, BitVec.toNat_ofNat]
  omega

/-- The position gather's start index at row p, read signed, is 8191 - p: never negative, so again no wrap-around. -/
theorem start_pos (p : Fin 8192) :
    (val_main_v18 (F := Ideal) (ix2 p 0)).toInt.toNat = 8191 - p.val := by
  have hp := p.isLt
  have hw : val_main_v2 (F := Ideal) (ix1 p) = BitVec.ofNat 32 (8191 - p.val) := by
    rw [val_main_v2_apply, val_main_v1_apply, val_main_c_apply, val_main_v0_apply]
    exact rev_word p
  have hN : (BitVec.ofNat 32 (8191 - p.val)).toNat = 8191 - p.val := by
    rw [BitVec.toNat_ofNat]; omega
  have hI : (BitVec.ofNat 32 (8191 - p.val)).toInt = ((8191 - p.val : Nat) : Int) := by
    rw [toInt_small _ (by rw [hN]; omega), hN]
  rw [val_main_v18_apply, val_main_v17_apply, val_main_v14_apply, val_main_v13_apply, val_main_c_2_apply,
    show idx_main_v18 (ix2 p (0 : Fin 1)) = ix1 p from col_idx p, hw]
  have hn : ¬IntOp.cmpi .slt (BitVec.ofNat 32 (8191 - p.val)) 0#32 = 1#1 := by
    rw [IntOp.cmpi_slt, hI, show (0#32 : BitVec 32).toInt = 0 from by decide]
    omega
  rw [show Scalar.select (IntOp.cmpi .slt (BitVec.ofNat 32 (8191 - p.val)) 0#32) (val_main_v16 (F := Ideal) (ix1 p))
      (BitVec.ofNat 32 (8191 - p.val)) = BitVec.ofNat 32 (8191 - p.val) from if_neg hn, hI]
  rfl

/-- A bias vector laid along every row reads, at (p, k), the bias at k. -/
theorem bias_tok (x2 : FVec Ideal S1024 .f32) (p : Fin 8192) (k : Fin 1024) :
    val_main_v11 (F := Ideal) x2 (ix2 p k) = x2 (ix1 k) := by
  rw [val_main_v11_apply, val_main_v10_apply]
  exact congrArg x2 (funext fun a => by match a with | ⟨0, _⟩ => rfl)

theorem bias_pos (x4 : FVec Ideal S1024 .f32) (p : Fin 8192) (k : Fin 1024) :
    val_main_v21 (F := Ideal) x4 (ix2 p k) = x4 (ix1 k) := by
  rw [val_main_v21_apply, val_main_v20_apply]
  exact congrArg x4 (funext fun a => by match a with | ⟨0, _⟩ => rfl)

/-- THE REFERENCE IS THE EMBEDDING SUM, when every token id is in range. -/
theorem ref_eq (x0 : IVec S8192 32) (x1 : FVec Ideal S50257x1024 .f32) (x2 : FVec Ideal S1024 .f32)
    (x3 : FVec Ideal S8192x1024 .f32) (x4 : FVec Ideal S1024 .f32) (hx : ∀ i : S8192.Idx, (x0 i).toNat < 50257) :
    val_main_v23 (F := Ideal) x0 x1 x2 x3 x4 = Cert.EmbedSpec.embed x0 x1 x2 x3 x4 := by
  funext j
  obtain ⟨p, k, rfl⟩ : ∃ (p : Fin 8192) (k : Fin 1024), j = ix2 p k := ⟨j 0, j 1, eq_ix2 j⟩
  rw [val_main_v23_apply, val_main_v12_apply, val_main_v22_apply, bias_tok, bias_pos]
  unfold val_main_v9 val_main_v19
  rw [RowGather.gather_rows gather_S50257x1024_S8192x1_S8192x1024_1_0_n_n_0_1_11024 rfl rfl rfl rfl rfl _ p k x1 (by decide),
    RowGather.gather_rows gather_S8192x1024_S8192x1_S8192x1024_1_0_n_n_0_1_11024 rfl rfl rfl rfl rfl _ p k x3 (by decide)]
  have hp := hx (ix1 p)
  have e1 : (⟨min (val_main_v8 (F := Ideal) x0 (ix2 p 0)).toInt.toNat (50257 - 1), by omega⟩ : Fin 50257)
      = Cert.EmbedSpec.tokRow x0 p := by
    apply Fin.ext
    show min (val_main_v8 (F := Ideal) x0 (ix2 p 0)).toInt.toNat (50257 - 1) = min (x0 (ix1 p)).toNat 50256
    rw [start_tok x0 p hp, toInt_small _ (by omega)]
    rfl
  have e2 : (⟨min (val_main_v18 (F := Ideal) (ix2 p 0)).toInt.toNat (8192 - 1), by omega⟩ : Fin 8192)
      = Cert.EmbedSpec.posRow p := by
    apply Fin.ext
    show min (val_main_v18 (F := Ideal) (ix2 p 0)).toInt.toNat (8192 - 1) = 8191 - p.val
    rw [start_pos p]
    omega
  rw [e1, e2]
  exact Cert.EmbedSpec.embed_grouped _ _ _ _

end Cert.ReferenceIdeal.RefValue

end
-- ==== Proof.lean ====
/-
  The claim: the embedding kernel against its reference, over the extended reals.

  Both programs compute, for every position p and column k,
      W_tok[x_p, k] + b_tok[k] + W_pos[8191 - p, k] + b_pos[k].
  The kernel gathers row x_p of the token table by using the prefetched id x_p as the block index of its token window,
  and row 8191 - p of the position table by its position window's index map; the reference gathers the same rows with
  two index gathers. The precondition asks every float input to be finite and every id to lie in [0, 50257), the row
  range of the table it indexes: under it the kernel's token blocks stay inside the table (so the pipeline runs), and
  the reference's index normalisation (wrap negative, clamp) changes nothing.

  The three frames: the kernel's two are the generated frame runs, under the range of the ids decoded from the
  precondition; the reference's is its generated run with the result dropped. The ideal pass rewrote nothing, so
  `preserves` is trivial. `algebraic`: the kernel's run ends at the embedding sum (read off its frame run: what each grid
  point writes back, the tiling of the result by the output blocks, the host reshapes), the reference's run ends at the
  same function (its gathers and broadcasts read index by index); the two orders of addition agree because addition of
  extended reals is associative. Finiteness of the floats is not used.
-/
import proofs.«425993_j8418135900659_2_alg».proof.Defs
import proofs.«425993_j8418135900659_2_alg».proof.Proof.Gen.Kernel
import proofs.«425993_j8418135900659_2_alg».proof.Proof.Gen.Kernel.Skeleton
import proofs.«425993_j8418135900659_2_alg».proof.Proof.Gen.Kernel.Launch
import proofs.«425993_j8418135900659_2_alg».proof.Proof.Gen.Kernel.Points
import proofs.«425993_j8418135900659_2_alg».proof.Proof.Gen.Kernel.Frame
import proofs.«425993_j8418135900659_2_alg».proof.Proof.Gen.KernelIdeal
import proofs.«425993_j8418135900659_2_alg».proof.Proof.Gen.KernelIdeal.Skeleton
import proofs.«425993_j8418135900659_2_alg».proof.Proof.Gen.KernelIdeal.Launch
import proofs.«425993_j8418135900659_2_alg».proof.Proof.Gen.KernelIdeal.Points
import proofs.«425993_j8418135900659_2_alg».proof.Proof.Gen.KernelIdeal.Frame
import proofs.«425993_j8418135900659_2_alg».proof.Proof.Gen.ReferenceIdeal
import proofs.«425993_j8418135900659_2_alg».proof.Proof.Gen.ReferenceIdeal.Run
import proofs.«425993_j8418135900659_2_alg».proof.Proof.Gen.ReferenceIdeal.Read
import proofs.«425993_j8418135900659_2_alg».proof.Proof.Gen.Pre_finite_inputs
import proofs.«425993_j8418135900659_2_alg».proof.Proof.TokenRange
import proofs.«425993_j8418135900659_2_alg».proof.Proof.KernelOk
import proofs.«425993_j8418135900659_2_alg».proof.Proof.KernelIdealOk
import proofs.«425993_j8418135900659_2_alg».proof.Proof.KernelIdealValue
import proofs.«425993_j8418135900659_2_alg».proof.Proof.RefValue
import Idealize.ShloMosaic.Adequacy
import Idealize.ShloMosaic.Init

noncomputable section

namespace Cert.Proof

open Idealize.ShloMosaic Idealize.SL.Sem

/-- The precondition on the word-level kernel's memory puts every id below 50257. -/
theorem ids_kernel (m : (ℓ : Loc Cert.Kernel.nD Cert.Kernel.τ Cert.Kernel.sig) → Buf (Elt Bits) ℓ)
    (h : Cert.Pre_Kernel (hPre_finite_inputs := Cert.Pre_finite_inputs.Gen.facts) m) (i : Cert.Kernel.S8192.Idx) :
    (m (((0 : Dev Cert.Kernel.nD).tc : Thread Cert.Kernel.nD Cert.Kernel.τ).loc Cert.Kernel.main_arg0) i).toNat < 50257 :=
  Cert.TokenRange.token_lt (F := Bits) _ _ _ _ _ (h 0) i

/-- The same of the idealized kernel's memory. -/
theorem ids_ideal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (i : Cert.KernelIdeal.S8192.Idx) :
    (m (((0 : Dev Cert.KernelIdeal.nD).tc : Thread Cert.KernelIdeal.nD Cert.KernelIdeal.τ).loc Cert.KernelIdeal.main_arg0) i).toNat < 50257 :=
  Cert.TokenRange.token_lt (F := Ideal) _ _ _ _ _ (h 0) i

theorem frame_k : Cert.frame_Kernel (hKernel := Cert.Kernel.Gen.facts) (hPre_finite_inputs := Cert.Pre_finite_inputs.Gen.facts) :=
  fun m ρ h => Cert.Kernel.Gen.frame m ρ (Cert.Kernel.TokenOk.ok_of_range m (ids_kernel m h))

theorem frame_ki : Cert.frame_KernelIdeal (hKernelIdeal := Cert.KernelIdeal.Gen.facts) (hPre_finite_inputs := Cert.Pre_finite_inputs.Gen.facts) :=
  fun m ρ h => Cert.KernelIdeal.Gen.frame m ρ (Cert.KernelIdeal.TokenOk.ok_of_range m (ids_ideal m h))

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the embedding sum of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hx := ids_ideal m hpre
  refine ⟨_, Cert.KernelIdeal.EmbedValue.run ρ m (Cert.KernelIdeal.TokenOk.ok_of_range m hx) hx, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v23_eq, (hagree 0).1, (hagree 0).2.1, (hagree 0).2.2.1, (hagree 0).2.2.2.1, (hagree 0).2.2.2.2]
  exact Cert.ReferenceIdeal.RefValue.ref_eq _ _ _ _ _ hx

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
